-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x56x56x256 : Shape := ⟨4, ![16, 56, 56, 256]⟩
abbrev S_ : Shape := ⟨0, ![]⟩

class Facts : Prop where
  bcast_S_S16x56x56x256 : S_.BroadcastsInDim S16x56x56x256 (![] : Fin 0 → Fin S16x56x56x256.rank)
  reducesTo_S16x56x56x256_S_d0_1_2_3 : S16x56x56x256.ReducesTo [0, 1, 2, 3] S_
  h_S_ : 0 < S_.numel

variable [Facts]

def fn_part1 {F : FTy → Type} [FloatOps F] (main_arg4 : FVec F S16x56x56x256 .f32) (main_v13 : IVec S_ 1) (main_v16 : IVec S16x56x56x256 1) : IVec S_ 1 :=
  let main_c_5 : IVec S_ 1 := constantI S_ 1 1#1
  let main_v17 : IVec S_ 1 := (fun x v => Host.reduce IntOp.andi x v reducesTo_S16x56x56x256_S_d0_1_2_3 h_S_) main_v16 main_c_5
  let main_v18 : IVec S_ 1 := andi main_v13 main_v17
  let main_v19 : FVec F S16x56x56x256 .f32 := Host.absf main_arg4
  let main_cst_6 : FVec F S_ .f32 := constant S_ .f32 0x7F800000#32
  let main_v20 : FVec F S16x56x56x256 .f32 := broadcastInDim S16x56x56x256 ![] bcast_S_S16x56x56x256 main_cst_6
  let main_v21 : IVec S16x56x56x256 1 := cmpf .olt main_v19 main_v20
  let main_c_7 : IVec S_ 1 := constantI S_ 1 1#1
  let main_v22 : IVec S_ 1 := (fun x v => Host.reduce IntOp.andi x v reducesTo_S16x56x56x256_S_d0_1_2_3 h_S_) main_v21 main_c_7
  let main_v23 : IVec S_ 1 := andi main_v18 main_v22
  main_v23

def fn {F : FTy → Type} [FloatOps F] (main_arg0 : FVec F S16x56x56x256 .f32) (main_arg1 : FVec F S16x56x56x256 .f32) (main_arg2 : FVec F S16x56x56x256 .f32) (main_arg3 : FVec F S16x56x56x256 .f32) (main_arg4 : FVec F S16x56x56x256 .f32) : IVec S_ 1 :=
  let main_v0 : FVec F S16x56x56x256 .f32 := Host.absf main_arg0
  let main_cst : FVec F S_ .f32 := constant S_ .f32 0x7F800000#32
  let main_v1 : FVec F S16x56x56x256 .f32 := broadcastInDim S16x56x56x256 ![] bcast_S_S16x56x56x256 main_cst
  let main_v2 : IVec S16x56x56x256 1 := cmpf .olt main_v0 main_v1
  let main_c : IVec S_ 1 := constantI S_ 1 1#1
  let main_v3 : IVec S_ 1 := (fun x v => Host.reduce IntOp.andi x v reducesTo_S16x56x56x256_S_d0_1_2_3 h_S_) main_v2 main_c
  let main_v4 : FVec F S16x56x56x256 .f32 := Host.absf main_arg1
  let main_cst_0 : FVec F S_ .f32 := constant S_ .f32 0x7F800000#32
  let main_v5 : FVec F S16x56x56x256 .f32 := broadcastInDim S16x56x56x256 ![] bcast_S_S16x56x56x256 main_cst_0
  let main_v6 : IVec S16x56x56x256 1 := cmpf .olt main_v4 main_v5
  let main_c_1 : IVec S_ 1 := constantI S_ 1 1#1
  let main_v7 : IVec S_ 1 := (fun x v => Host.reduce IntOp.andi x v reducesTo_S16x56x56x256_S_d0_1_2_3 h_S_) main_v6 main_c_1
  let main_v8 : IVec S_ 1 := andi main_v3 main_v7
  let main_v9 : FVec F S16x56x56x256 .f32 := Host.absf main_arg2
  let main_cst_2 : FVec F S_ .f32 := constant S_ .f32 0x7F800000#32
  let main_v10 : FVec F S16x56x56x256 .f32 := broadcastInDim S16x56x56x256 ![] bcast_S_S16x56x56x256 main_cst_2
  let main_v11 : IVec S16x56x56x256 1 := cmpf .olt main_v9 main_v10
  let main_c_3 : IVec S_ 1 := constantI S_ 1 1#1
  let main_v12 : IVec S_ 1 := (fun x v => Host.reduce IntOp.andi x v reducesTo_S16x56x56x256_S_d0_1_2_3 h_S_) main_v11 main_c_3
  let main_v13 : IVec S_ 1 := andi main_v8 main_v12
  let main_v14 : FVec F S16x56x56x256 .f32 := Host.absf main_arg3
  let main_cst_4 : FVec F S_ .f32 := constant S_ .f32 0x7F800000#32
  let main_v15 : FVec F S16x56x56x256 .f32 := broadcastInDim S16x56x56x256 ![] bcast_S_S16x56x56x256 main_cst_4
  let main_v16 : IVec S16x56x56x256 1 := cmpf .olt main_v14 main_v15
  fn_part1 (F := F) main_arg4 main_v13 main_v16
-- ==== Kernel.lean ====
abbrev S16x56x56x256 : Shape := ⟨4, ![16, 56, 56, 256]⟩
abbrev S50176x256 : Shape := ⟨2, ![50176, 256]⟩
abbrev S1024x256 : Shape := ⟨2, ![1024, 256]⟩
abbrev S1x16x56x56x256 : Shape := ⟨5, ![1, 16, 56, 56, 256]⟩
abbrev S6x16x56x56x256 : Shape := ⟨5, ![6, 16, 56, 56, 256]⟩

abbrev nBuf : Space → Nat
  | .hbm => 29
  | .vmem => 22
  | .smem => 0
  | _ => 0

abbrev bufTy : (tb : Table) → Fin (tcTables nBuf tb) → BufTy
  | .hbm, ⟨0, _⟩ => ⟨S16x56x56x256, .f32⟩
  | .hbm, ⟨1, _⟩ => ⟨S16x56x56x256, .f32⟩
  | .hbm, ⟨2, _⟩ => ⟨S16x56x56x256, .f32⟩
  | .hbm, ⟨3, _⟩ => ⟨S16x56x56x256, .f32⟩
  | .hbm, ⟨4, _⟩ => ⟨S16x56x56x256, .f32⟩
  | .hbm, ⟨5, _⟩ => ⟨S50176x256, .f32⟩
  | .hbm, ⟨6, _⟩ => ⟨S50176x256, .f32⟩
  | .hbm, ⟨7, _⟩ => ⟨S50176x256, .f32⟩
  | .hbm, ⟨8, _⟩ => ⟨S50176x256, .f32⟩
  | .hbm, ⟨9, _⟩ => ⟨S50176x256, .f32⟩
  | .hbm, ⟨10, _⟩ => ⟨S50176x256, .f32⟩
  | .hbm, ⟨11, _⟩ => ⟨S50176x256, .f32⟩
  | .hbm, ⟨12, _⟩ => ⟨S50176x256, .f32⟩
  | .hbm, ⟨13, _⟩ => ⟨S50176x256, .f32⟩
  | .hbm, ⟨14, _⟩ => ⟨S50176x256, .f32⟩
  | .hbm, ⟨15, _⟩ => ⟨S50176x256, .f32⟩
  | .hbm, ⟨16, _⟩ => ⟨S16x56x56x256, .f32⟩
  | .hbm, ⟨17, _⟩ => ⟨S16x56x56x256, .f32⟩
  | .hbm, ⟨18, _⟩ => ⟨S16x56x56x256, .f32⟩
  | .hbm, ⟨19, _⟩ => ⟨S16x56x56x256, .f32⟩
  | .hbm, ⟨20, _⟩ => ⟨S16x56x56x256, .f32⟩
  | .hbm, ⟨21, _⟩ => ⟨S16x56x56x256, .f32⟩
  | .hbm, ⟨22, _⟩ => ⟨S1x16x56x56x256, .f32⟩
  | .hbm, ⟨23, _⟩ => ⟨S1x16x56x56x256, .f32⟩
  | .hbm, ⟨24, _⟩ => ⟨S1x16x56x56x256, .f32⟩
  | .hbm, ⟨25, _⟩ => ⟨S1x16x56x56x256, .f32⟩
  | .hbm, ⟨26, _⟩ => ⟨S1x16x56x56x256, .f32⟩
  | .hbm, ⟨27, _⟩ => ⟨S1x16x56x56x256, .f32⟩
  | .hbm, ⟨28, _⟩ => ⟨S6x16x56x56x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | _, _ => ⟨S16x56x56x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  shapeCasts_S16x56x56x256_S50176x256 : S16x56x56x256.ShapeCasts S50176x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  natLt_1_32 : 1 < 32
  shapeCasts_S50176x256_S16x56x56x256 : S50176x256.ShapeCasts S16x56x56x256
  bcast_S16x56x56x256_S1x16x56x56x256_1_2_3_4 : S16x56x56x256.BroadcastsInDim S1x16x56x56x256 (![1, 2, 3, 4] : Fin 4 → Fin S1x16x56x56x256.rank)
  concatenates_S1x16x56x56x256_S1x16x56x56x256_S1x16x56x56x256_S1x16x56x56x256_S1x16x56x56x256_S1x16x56x56x256_S6x16x56x56x256_d0 : Shape.Concatenates [S1x16x56x56x256, S1x16x56x56x256, S1x16x56x56x256, S1x16x56x56x256, S1x16x56x56x256, S1x16x56x56x256] S6x16x56x56x256 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S50176x256.size a
  hwx0_0 : ∀ i : grid0.Coords, EltTy.bits .f32 = 32 ∨ (Rect.block (s := S50176x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S50176x256.size a
  hwx0_1 : ∀ i : grid0.Coords, EltTy.bits .f32 = 32 ∨ (Rect.block (s := S50176x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S50176x256.size a
  hwx0_2 : ∀ i : grid0.Coords, EltTy.bits .f32 = 32 ∨ (Rect.block (s := S50176x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S50176x256.size a
  hwx0_3 : ∀ i : grid0.Coords, EltTy.bits .f32 = 32 ∨ (Rect.block (s := S50176x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S50176x256.size a
  hwx0_4 : ∀ i : grid0.Coords, EltTy.bits .f32 = 32 ∨ (Rect.block (s := S50176x256) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S50176x256.size a
  hwx0_5 : ∀ i : grid0.Coords, EltTy.bits .f32 = 32 ∨ (Rect.block (s := S50176x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S50176x256.size a
  hwx0_6 : ∀ i : grid0.Coords, EltTy.bits .f32 = 32 ∨ (Rect.block (s := S50176x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S50176x256.size a
  hwx0_7 : ∀ i : grid0.Coords, EltTy.bits .f32 = 32 ∨ (Rect.block (s := S50176x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S50176x256.size a
  hwx0_8 : ∀ i : grid0.Coords, EltTy.bits .f32 = 32 ∨ (Rect.block (s := S50176x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S50176x256.size a
  hwx0_9 : ∀ i : grid0.Coords, EltTy.bits .f32 = 32 ∨ (Rect.block (s := S50176x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S50176x256.size a
  hwx0_10 : ∀ i : grid0.Coords, EltTy.bits .f32 = 32 ∨ (Rect.block (s := S50176x256) S1024x256.size (cc0_transform_10 i) (hinb0_10 i)).WholeWords (EltTy.packing .f32)

variable [Facts₀]

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_2) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_3) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_4) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_5) S1024x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16x56x56x256 : Shape := ⟨4, ![16, 56, 56, 256]⟩
abbrev S_ : Shape := ⟨0, ![]⟩
abbrev S1x16x56x56x256 : Shape := ⟨5, ![1, 16, 56, 56, 256]⟩
abbrev S6x16x56x56x256 : Shape := ⟨5, ![6, 16, 56, 56, 256]⟩

abbrev nBuf : Space → Nat
  | .hbm => 55
  | .vmem => 0
  | .smem => 0
  | _ => 0

abbrev bufTy : (tb : Table) → Fin (tcTables nBuf tb) → BufTy
  | .hbm, ⟨0, _⟩ => ⟨S16x56x56x256, .f32⟩
  | .hbm, ⟨1, _⟩ => ⟨S16x56x56x256, .f32⟩
  | .hbm, ⟨2, _⟩ => ⟨S16x56x56x256, .f32⟩
  | .hbm, ⟨3, _⟩ => ⟨S16x56x56x256, .f32⟩
  | .hbm, ⟨4, _⟩ => ⟨S16x56x56x256, .f32⟩
  | .hbm, ⟨5, _⟩ => ⟨S_, .f32⟩
  | .hbm, ⟨6, _⟩ => ⟨S16x56x56x256, .f32⟩
  | .hbm, ⟨7, _⟩ => ⟨S16x56x56x256, .i1⟩
  | .hbm, ⟨8, _⟩ => ⟨S_, .f32⟩
  | .hbm, ⟨9, _⟩ => ⟨S16x56x56x256, .f32⟩
  | .hbm, ⟨10, _⟩ => ⟨S16x56x56x256, .f32⟩
  | .hbm, ⟨11, _⟩ => ⟨S16x56x56x256, .f32⟩
  | .hbm, ⟨12, _⟩ => ⟨S16x56x56x256, .f32⟩
  | .hbm, ⟨13, _⟩ => ⟨S_, .f32⟩
  | .hbm, ⟨14, _⟩ => ⟨S16x56x56x256, .f32⟩
  | .hbm, ⟨15, _⟩ => ⟨S16x56x56x256, .i1⟩
  | .hbm, ⟨16, _⟩ => ⟨S16x56x56x256, .f32⟩
  | .hbm, ⟨17, _⟩ => ⟨S_, .f32⟩
  | .hbm, ⟨18, _⟩ => ⟨S16x56x56x256, .f32⟩
  | .hbm, ⟨19, _⟩ => ⟨S16x56x56x256, .f32⟩
  | .hbm, ⟨20, _⟩ => ⟨S_, .f32⟩
  | .hbm, ⟨21, _⟩ => ⟨S16x56x56x256, .f32⟩
  | .hbm, ⟨22, _⟩ => ⟨S16x56x56x256, .i1⟩
  | .hbm, ⟨23, _⟩ => ⟨S_, .f32⟩
  | .hbm, ⟨24, _⟩ => ⟨S16x56x56x256, .f32⟩
  | .hbm, ⟨25, _⟩ => ⟨S16x56x56x256, .f32⟩
  | .hbm, ⟨26, _⟩ => ⟨S16x56x56x256, .f32⟩
  | .hbm, ⟨27, _⟩ => ⟨S_, .f32⟩
  | .hbm, ⟨28, _⟩ => ⟨S16x56x56x256, .f32⟩
  | .hbm, ⟨29, _⟩ => ⟨S16x56x56x256, .i1⟩
  | .hbm, ⟨30, _⟩ => ⟨S_, .f32⟩
  | .hbm, ⟨31, _⟩ => ⟨S16x56x56x256, .f32⟩
  | .hbm, ⟨32, _⟩ => ⟨S16x56x56x256, .f32⟩
  | .hbm, ⟨33, _⟩ => ⟨S16x56x56x256, .f32⟩
  | .hbm, ⟨34, _⟩ => ⟨S_, .f32⟩
  | .hbm, ⟨35, _⟩ => ⟨S16x56x56x256, .f32⟩
  | .hbm, ⟨36, _⟩ => ⟨S16x56x56x256, .i1⟩
  | .hbm, ⟨37, _⟩ => ⟨S_, .f32⟩
  | .hbm, ⟨38, _⟩ => ⟨S16x56x56x256, .f32⟩
  | .hbm, ⟨39, _⟩ => ⟨S16x56x56x256, .f32⟩
  | .hbm, ⟨40, _⟩ => ⟨S_, .f32⟩
  | .hbm, ⟨41, _⟩ => ⟨S16x56x56x256, .f32⟩
  | .hbm, ⟨42, _⟩ => ⟨S16x56x56x256, .i1⟩
  | .hbm, ⟨43, _⟩ => ⟨S16x56x56x256, .f32⟩
  | .hbm, ⟨44, _⟩ => ⟨S16x56x56x256, .f32⟩
  | .hbm, ⟨45, _⟩ => ⟨S_, .f32⟩
  | .hbm, ⟨46, _⟩ => ⟨S16x56x56x256, .f32⟩
  | .hbm, ⟨47, _⟩ => ⟨S16x56x56x256, .f32⟩
  | .hbm, ⟨48, _⟩ => ⟨S1x16x56x56x256, .f32⟩
  | .hbm, ⟨49, _⟩ => ⟨S1x16x56x56x256, .f32⟩
  | .hbm, ⟨50, _⟩ => ⟨S1x16x56x56x256, .f32⟩
  | .hbm, ⟨51, _⟩ => ⟨S1x16x56x56x256, .f32⟩
  | .hbm, ⟨52, _⟩ => ⟨S1x16x56x56x256, .f32⟩
  | .hbm, ⟨53, _⟩ => ⟨S1x16x56x56x256, .f32⟩
  | .hbm, ⟨54, _⟩ => ⟨S6x16x56x56x256, .f32⟩
  | _, _ => ⟨S16x56x56x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩
abbrev main_cst_9 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S_S16x56x56x256 : S_.BroadcastsInDim S16x56x56x256 (![] : Fin 0 → Fin S16x56x56x256.rank)
  bcast_S16x56x56x256_S1x16x56x56x256_1_2_3_4 : S16x56x56x256.BroadcastsInDim S1x16x56x56x256 (![1, 2, 3, 4] : Fin 4 → Fin S1x16x56x56x256.rank)
  concatenates_S1x16x56x56x256_S1x16x56x56x256_S1x16x56x56x256_S1x16x56x56x256_S1x16x56x56x256_S1x16x56x56x256_S6x16x56x56x256_d0 : Shape.Concatenates [S1x16x56x56x256, S1x16x56x56x256, S1x16x56x56x256, S1x16x56x56x256, S1x16x56x56x256, S1x16x56x56x256] S6x16x56x56x256 0

variable [Facts₀]

class Facts : Prop extends Facts₀ where

variable [Facts]
-- ==== Proof.KernelRegion.lean ====
/-
  The program of the leaky-integrate-and-fire update around its one region, at any float family.

  @main reshapes its five arguments [16,56,56,256] to [50176,256]; the region runs over 49 points, point t holding rows
  1024·t … 1024·t + 1023 of each reshaped array and of six result arrays; afterwards each result is reshaped back to
  [16,56,56,256], given a leading unit axis, and the six are concatenated along that axis.

  At a point the body reads its five input blocks whole and writes six blocks whole, each an elementwise function of the
  input blocks: the spikes, the membrane after reset, the accumulated membrane, the refractory time, the spike counts and the
  spike train (spikesBlk … trainBlk below, each the block whose every entry is the printed arithmetic of the entries of
  the input blocks at the same position). Since every window is fetched and written back at every point and the blocks
  tile the arrays, each result array ends as the arrays' own function of the reshaped arguments, and no argument array is
  written: neither by the five reshapes before the region, nor by the region (whose windows are the reshaped copies and the
  results), nor by the thirteen operations after it (each writes only its own result).
-/
import proofs.«178735_j66967130079991_1_alg».proof.Proof.Gen.Kernel.Launch
import proofs.«178735_j66967130079991_1_alg».proof.Proof.Gen.Kernel.Skeleton
import proofs.«178735_j66967130079991_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core c's buffers hold when the region is entered: the launch contents after the five reshapes. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No operation before the region allocates. -/
theorem pre_fresh : (hostOps0 : List (HloOp τ sig (Elt F))).Forall fun op => op.fresh = ∅ := by
  simp only [List.Forall]; repeat' constructor
/-- No operation after the region allocates. -/
theorem post_fresh : (hostOps1 : List (HloOp τ sig (Elt F))).Forall fun op => op.fresh = ∅ := by
  simp only [List.Forall]; repeat' constructor

/-- @main is the reshapes, the region, then the thirteen later operations: run from the launch state it comes to the
    region entered at V, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp post_fresh) op hop
/-- And none of them writes an array of the region: each writes its own result, which is none of the eleven. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.unary_writes, StableHlo.reshape_writes, StableHlo.nary_writes, Finset.mem_singleton] <;> exact StableHlo.devRef_ne_of_ne (by decide)

/-! ## The arguments are found, and left, as launched -/

/-- No reshape before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the fourth argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the fifth argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No operation after the region writes the first argument, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The same for the third argument. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The same for the fourth argument. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The same for the fifth argument. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t: rows 1024·t … 1024·t + 1023 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point: it is fetched at every point, and the body leaves it in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run that ends with every buffer outside the region's arrays as the later operations leave it ends with the five
    argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## What the body leaves in each result's staging buffer -/

/-- A block whole: every access of the body is to this rectangle. -/
abbrev whole : Rect S1024x256 := Rect.unit (s := S1024x256) ![0, 0] S1024x256.size inb_S1024x256_S1024x256_0_0

/-- The spikes: the threshold test of the membrane plus the masked impulse, as a float, times the threshold. -/
def spikesBlk (imp mem refr : Vec F S1024x256 .f32) : Vec F S1024x256 .f32 :=
  View.canon [⟨whole, k0_pay8 (View.ld imp whole) (View.ld mem whole) (View.ld refr whole)⟩]
/-- The membrane after reset by subtraction. -/
def memBlk (imp mem refr : Vec F S1024x256 .f32) : Vec F S1024x256 .f32 :=
  View.canon [⟨whole, k0_pay9 (View.ld imp whole) (View.ld mem whole) (View.ld refr whole)⟩]
/-- The accumulated membrane plus the masked impulse. -/
def accBlk (imp acc refr : Vec F S1024x256 .f32) : Vec F S1024x256 .f32 :=
  View.canon [⟨whole, k0_pay7 (View.ld imp whole) (View.ld acc whole) (View.ld refr whole)⟩]
/-- The refractory time: renewed where a spike fell, kept elsewhere. -/
def refracBlk (imp mem refr : Vec F S1024x256 .f32) : Vec F S1024x256 .f32 :=
  View.canon [⟨whole, k0_pay10 (View.ld imp whole) (View.ld mem whole) (View.ld refr whole)⟩]
/-- The spike counts, one more where a spike fell. -/
def countsBlk (imp mem refr cnt : Vec F S1024x256 .f32) : Vec F S1024x256 .f32 :=
  View.canon [⟨whole, k0_pay1 (k0_pay4 (View.ld cnt whole)) (k0_pay11 (View.ld imp whole) (View.ld mem whole) (View.ld refr whole))⟩]
/-- The spike train: the spikes times the current time. -/
def trainBlk (imp mem refr : Vec F S1024x256 .f32) : Vec F S1024x256 .f32 :=
  View.canon [⟨whole, k0_pay2 (k0_pay8 (View.ld imp whole) (View.ld mem whole) (View.ld refr whole))⟩]

/-- One store of the whole block covers the block. -/
theorem cover_whole (p0 : Vec F S1024x256 .f32) (y : S1024x256.Idx) :
    ∃ pc ∈ ([⟨whole, p0⟩] : List (View.Piece (Elt F) S1024x256 .f32)), y ∈ pc.1.set :=
  View.cover_of_tiled [⟨whole, p0⟩] S1024x256.size (by rfl) y

/-! ## The body's triple -/

set_option maxHeartbeats 4000000 in
/-- The body on eleven whole buffers, the five inputs at known contents and the six results at anything, runs to the end
    leaving the inputs as they were and each result at its block of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (arg6 : Memref sig .tc .vmem S1024x256 .f32) (harg6 : arg6.IsWhole)
    (arg7 : Memref sig .tc .vmem S1024x256 .f32) (harg7 : arg7.IsWhole) (arg8 : Memref sig .tc .vmem S1024x256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (x0 x1 x2 x3 x4 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (spikesBlk x0 x1 x3) ∗ owns (c : Thread nD τ) arg7 fullShare (memBlk x0 x1 x3)
            ∗ owns (c : Thread nD τ) arg8 fullShare (accBlk x0 x2 x3) ∗ owns (c : Thread nD τ) arg9 fullShare (refracBlk x0 x1 x3)
            ∗ owns (c : Thread nD τ) arg10 fullShare (countsBlk x0 x1 x3 x4) ∗ owns (c : Thread nD τ) arg11 fullShare (trainBlk x0 x1 x3)) -∗ K ⟨⟩))
      ⊢ wp frame (wpE (defs₀ (F := F)) Variants.none c none) E
          (cc0__lif_kernel i arg1 harg1 arg2 harg2 arg3 harg3 arg4 harg4 arg5 harg5 arg6 harg6 arg7 harg7 arg8 harg8 arg9 harg9 arg10 harg10 arg11 harg11) K := by
  simp only [cc0__lif_kernel_eq_skeleton]; unfold cc0__lif_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  isplitl [H9]
  · iexists _; isplitr
    swap; · iexact H9
    ipureintro
    exact View.read_writes_eq_canon _ _ _ (cover_whole _)
  iexists _; isplitr
  swap; · iexact H10
  ipureintro
  exact View.read_writes_eq_canon _ _ _ (cover_whole _)

/-! ## The region's proof data -/

/-- On core c: the arrays as the region finds them; after the body at point t each input's buffer at its block and each
    result's at its block of the five input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => spikesBlk (iblk m c 0 t) (iblk m c 1 t) (iblk m c 3 t)
    | ⟨6, _⟩ => memBlk (iblk m c 0 t) (iblk m c 1 t) (iblk m c 3 t)
    | ⟨7, _⟩ => accBlk (iblk m c 0 t) (iblk m c 2 t) (iblk m c 3 t)
    | ⟨8, _⟩ => refracBlk (iblk m c 0 t) (iblk m c 1 t) (iblk m c 3 t)
    | ⟨9, _⟩ => countsBlk (iblk m c 0 t) (iblk m c 1 t) (iblk m c 3 t) (iblk m c 4 t)
    | ⟨10, _⟩ => trainBlk (iblk m c 0 t) (iblk m c 1 t) (iblk m c 3 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = spikesBlk (iblk m c 0 t) (iblk m c 1 t) (iblk m c 3 t) := by dsimp only [dats]
theorem after6 (c : Dev nD) (t : Fin cfg0.N) : (dats m 0 c).after 6 t = memBlk (iblk m c 0 t) (iblk m c 1 t) (iblk m c 3 t) := by dsimp only [dats]
theorem after7 (c : Dev nD) (t : Fin cfg0.N) : (dats m 0 c).after 7 t = accBlk (iblk m c 0 t) (iblk m c 2 t) (iblk m c 3 t) := by dsimp only [dats]
theorem after8 (c : Dev nD) (t : Fin cfg0.N) : (dats m 0 c).after 8 t = refracBlk (iblk m c 0 t) (iblk m c 1 t) (iblk m c 3 t) := by dsimp only [dats]
theorem after9 (c : Dev nD) (t : Fin cfg0.N) : (dats m 0 c).after 9 t = countsBlk (iblk m c 0 t) (iblk m c 1 t) (iblk m c 3 t) (iblk m c 4 t) := by dsimp only [dats]
theorem after10 (c : Dev nD) (t : Fin cfg0.N) : (dats m 0 c).after 10 t = trainBlk (iblk m c 0 t) (iblk m c 1 t) (iblk m c 3 t) := by dsimp only [dats]

/-- Each input's staging buffer holds its block when the body is called. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the inputs' buffers hold their blocks, so the body's triple applies; the invariant and what the core owes
    pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end every array of the
    region holds what the write-backs of the blocks above make of it, and every other buffer what the thirteen later
    operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end without a fault and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Region

end
-- ==== Proof.KernelIdealRegion.lean ====
/-
  The program of the leaky-integrate-and-fire update around its one region, at any float family.

  @main reshapes its five arguments [16,56,56,256] to [50176,256]; the region runs over 49 points, point t holding rows
  1024·t … 1024·t + 1023 of each reshaped array and of six result arrays; afterwards each result is reshaped back to
  [16,56,56,256], given a leading unit axis, and the six are concatenated along that axis.

  At a point the body reads its five input blocks whole and writes six blocks whole, each an elementwise function of the
  input blocks: the spikes, the membrane after reset, the accumulated membrane, the refractory time, the spike counts and the
  spike train (spikesBlk … trainBlk below, each the block whose every entry is the printed arithmetic of the entries of
  the input blocks at the same position). Since every window is fetched and written back at every point and the blocks
  tile the arrays, each result array ends as the arrays' own function of the reshaped arguments, and no argument array is
  written: neither by the five reshapes before the region, nor by the region (whose windows are the reshaped copies and the
  results), nor by the thirteen operations after it (each writes only its own result).
-/
import proofs.«178735_j66967130079991_1_alg».proof.Proof.Gen.KernelIdeal.Launch
import proofs.«178735_j66967130079991_1_alg».proof.Proof.Gen.KernelIdeal.Skeleton
import proofs.«178735_j66967130079991_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core c's buffers hold when the region is entered: the launch contents after the five reshapes. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

/-- No operation before the region allocates. -/
theorem pre_fresh : (hostOps0 : List (HloOp τ sig (Elt F))).Forall fun op => op.fresh = ∅ := by
  simp only [List.Forall]; repeat' constructor
/-- No operation after the region allocates. -/
theorem post_fresh : (hostOps1 : List (HloOp τ sig (Elt F))).Forall fun op => op.fresh = ∅ := by
  simp only [List.Forall]; repeat' constructor

/-- @main is the reshapes, the region, then the thirteen later operations: run from the launch state it comes to the
    region entered at V, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- The later operations touch only the region's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp post_fresh) op hop
/-- And none of them writes an array of the region: each writes its own result, which is none of the eleven. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl
    all_goals intro w; fin_cases w <;> simp only [StableHlo.unary_writes, StableHlo.reshape_writes, StableHlo.nary_writes, Finset.mem_singleton] <;> exact StableHlo.devRef_ne_of_ne (by decide)

/-! ## The arguments are found, and left, as launched -/

/-- No reshape before the region writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the second argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the third argument. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the fourth argument. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
/-- The same for the fifth argument. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No operation after the region writes the first argument, and it is no array of the region: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- The same for the second argument. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- The same for the third argument. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- The same for the fourth argument. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- The same for the fifth argument. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.unary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window w's block at point t: rows 1024·t … 1024·t + 1023 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point: it is fetched at every point, and the body leaves it in place. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the run's post to the frame claim's -/

/-- A run that ends with every buffer outside the region's arrays as the later operations leave it ends with the five
    argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c)⟩) h

/-! ## What the body leaves in each result's staging buffer -/

/-- A block whole: every access of the body is to this rectangle. -/
abbrev whole : Rect S1024x256 := Rect.unit (s := S1024x256) ![0, 0] S1024x256.size inb_S1024x256_S1024x256_0_0

/-- The spikes: the threshold test of the membrane plus the masked impulse, as a float, times the threshold. -/
def spikesBlk (imp mem refr : Vec F S1024x256 .f32) : Vec F S1024x256 .f32 :=
  View.canon [⟨whole, k0_pay8 (View.ld imp whole) (View.ld mem whole) (View.ld refr whole)⟩]
/-- The membrane after reset by subtraction. -/
def memBlk (imp mem refr : Vec F S1024x256 .f32) : Vec F S1024x256 .f32 :=
  View.canon [⟨whole, k0_pay9 (View.ld imp whole) (View.ld mem whole) (View.ld refr whole)⟩]
/-- The accumulated membrane plus the masked impulse. -/
def accBlk (imp acc refr : Vec F S1024x256 .f32) : Vec F S1024x256 .f32 :=
  View.canon [⟨whole, k0_pay7 (View.ld imp whole) (View.ld acc whole) (View.ld refr whole)⟩]
/-- The refractory time: renewed where a spike fell, kept elsewhere. -/
def refracBlk (imp mem refr : Vec F S1024x256 .f32) : Vec F S1024x256 .f32 :=
  View.canon [⟨whole, k0_pay10 (View.ld imp whole) (View.ld mem whole) (View.ld refr whole)⟩]
/-- The spike counts, one more where a spike fell. -/
def countsBlk (imp mem refr cnt : Vec F S1024x256 .f32) : Vec F S1024x256 .f32 :=
  View.canon [⟨whole, k0_pay1 (k0_pay4 (View.ld cnt whole)) (k0_pay11 (View.ld imp whole) (View.ld mem whole) (View.ld refr whole))⟩]
/-- The spike train: the spikes times the current time. -/
def trainBlk (imp mem refr : Vec F S1024x256 .f32) : Vec F S1024x256 .f32 :=
  View.canon [⟨whole, k0_pay2 (k0_pay8 (View.ld imp whole) (View.ld mem whole) (View.ld refr whole))⟩]

/-- One store of the whole block covers the block. -/
theorem cover_whole (p0 : Vec F S1024x256 .f32) (y : S1024x256.Idx) :
    ∃ pc ∈ ([⟨whole, p0⟩] : List (View.Piece (Elt F) S1024x256 .f32)), y ∈ pc.1.set :=
  View.cover_of_tiled [⟨whole, p0⟩] S1024x256.size (by rfl) y

/-! ## The body's triple -/

set_option maxHeartbeats 4000000 in
/-- The body on eleven whole buffers, the five inputs at known contents and the six results at anything, runs to the end
    leaving the inputs as they were and each result at its block of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S1024x256 .f32) (harg5 : arg5.IsWhole) (arg6 : Memref sig .tc .vmem S1024x256 .f32) (harg6 : arg6.IsWhole)
    (arg7 : Memref sig .tc .vmem S1024x256 .f32) (harg7 : arg7.IsWhole) (arg8 : Memref sig .tc .vmem S1024x256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (x0 x1 x2 x3 x4 : Vec F S1024x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (spikesBlk x0 x1 x3) ∗ owns (c : Thread nD τ) arg7 fullShare (memBlk x0 x1 x3)
            ∗ owns (c : Thread nD τ) arg8 fullShare (accBlk x0 x2 x3) ∗ owns (c : Thread nD τ) arg9 fullShare (refracBlk x0 x1 x3)
            ∗ owns (c : Thread nD τ) arg10 fullShare (countsBlk x0 x1 x3 x4) ∗ owns (c : Thread nD τ) arg11 fullShare (trainBlk x0 x1 x3)) -∗ K ⟨⟩))
      ⊢ wp frame (wpE (defs₀ (F := F)) Variants.none c none) E
          (cc0__lif_kernel i arg1 harg1 arg2 harg2 arg3 harg3 arg4 harg4 arg5 harg5 arg6 harg6 arg7 harg7 arg8 harg8 arg9 harg9 arg10 harg10 arg11 harg11) K := by
  simp only [cc0__lif_kernel_eq_skeleton]; unfold cc0__lif_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_whole _)
  isplitl [H6]
  · iexists _; isplitr
    swap; · iexact H6
    ipureintro
    exact View.read_writes_eq_canon _ _ _ (cover_whole _)
  isplitl [H7]
  · iexists _; isplitr
    swap; · iexact H7
    ipureintro
    exact View.read_writes_eq_canon _ _ _ (cover_whole _)
  isplitl [H8]
  · iexists _; isplitr
    swap; · iexact H8
    ipureintro
    exact View.read_writes_eq_canon _ _ _ (cover_whole _)
  isplitl [H9]
  · iexists _; isplitr
    swap; · iexact H9
    ipureintro
    exact View.read_writes_eq_canon _ _ _ (cover_whole _)
  iexists _; isplitr
  swap; · iexact H10
  ipureintro
  exact View.read_writes_eq_canon _ _ _ (cover_whole _)

/-! ## The region's proof data -/

/-- On core c: the arrays as the region finds them; after the body at point t each input's buffer at its block and each
    result's at its block of the five input blocks; the invariant the untouched rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => spikesBlk (iblk m c 0 t) (iblk m c 1 t) (iblk m c 3 t)
    | ⟨6, _⟩ => memBlk (iblk m c 0 t) (iblk m c 1 t) (iblk m c 3 t)
    | ⟨7, _⟩ => accBlk (iblk m c 0 t) (iblk m c 2 t) (iblk m c 3 t)
    | ⟨8, _⟩ => refracBlk (iblk m c 0 t) (iblk m c 1 t) (iblk m c 3 t)
    | ⟨9, _⟩ => countsBlk (iblk m c 0 t) (iblk m c 1 t) (iblk m c 3 t) (iblk m c 4 t)
    | ⟨10, _⟩ => trainBlk (iblk m c 0 t) (iblk m c 1 t) (iblk m c 3 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = spikesBlk (iblk m c 0 t) (iblk m c 1 t) (iblk m c 3 t) := by dsimp only [dats]
theorem after6 (c : Dev nD) (t : Fin cfg0.N) : (dats m 0 c).after 6 t = memBlk (iblk m c 0 t) (iblk m c 1 t) (iblk m c 3 t) := by dsimp only [dats]
theorem after7 (c : Dev nD) (t : Fin cfg0.N) : (dats m 0 c).after 7 t = accBlk (iblk m c 0 t) (iblk m c 2 t) (iblk m c 3 t) := by dsimp only [dats]
theorem after8 (c : Dev nD) (t : Fin cfg0.N) : (dats m 0 c).after 8 t = refracBlk (iblk m c 0 t) (iblk m c 1 t) (iblk m c 3 t) := by dsimp only [dats]
theorem after9 (c : Dev nD) (t : Fin cfg0.N) : (dats m 0 c).after 9 t = countsBlk (iblk m c 0 t) (iblk m c 1 t) (iblk m c 3 t) (iblk m c 4 t) := by dsimp only [dats]
theorem after10 (c : Dev nD) (t : Fin cfg0.N) : (dats m 0 c).after 10 t = trainBlk (iblk m c 0 t) (iblk m c 1 t) (iblk m c 3 t) := by dsimp only [dats]

/-- Each input's staging buffer holds its block when the body is called. -/
theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d

/-! ## The body obligation at a point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- At any point the inputs' buffers hold their blocks, so the body's triple applies; the invariant and what the core owes
    pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates; at the end every array of the
    region holds what the write-backs of the blocks above make of it, and every other buffer what the thirteen later
    operations leave in it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The frame: @main runs to the end without a fault and leaves its five arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Region

end
-- ==== Proof.LifSpec.lean ====
/-
  One step of a layer of leaky integrate-and-fire neurons, entry by entry, at any shape and any float family.

  With current time 1/2, threshold 1 and refractory period 2, from the impulse, the membrane, the accumulated
  membrane, the refractory time and the spike counts of a neuron:
    masked   = 0 where refractory > 1/2, the impulse elsewhere;
    membrane = membrane + masked;   accumulated = accumulated + masked;
    spikes   = (1 if membrane ≥ 1 else 0) · 1;
    reset    = membrane − 1 where spikes > 0, then + 1 where spikes < 0;
    refractory = 1/2 + 2 = 5/2 (the current time plus the refractory period) where spikes ≠ 0, unchanged elsewhere;
    counts   = counts + (1 if spikes ≠ 0 else 0);   train = spikes · 1/2.
  Every operation acts on each entry alone, so each of the six results commutes with any re-indexing of the arrays:
  a reshape of a result is the result of the reshaped arguments.  The six results, each with a new leading unit
  axis, concatenated along it, are the step's value (stacked).

  The indicator of a one-bit test enters as a float in two spellings, the bit widened to 32 bits and read signed,
  or the bit read unsigned: both are the real 0 or 1.  An ordered and an unordered "not equal" agree on the extended
  reals, where every two values are comparable.
-/
import Idealize.ShloMosaic.PureOps.Ideal
import Idealize.ShloMosaic.Lib.Pipeline.Value

noncomputable section

namespace Cert.Lif

open Idealize.ShloMosaic

variable {F : FTy → Type} [FloatOps F] {S : Shape}

/-- The impulse, zeroed where the neuron is refractory (its refractory time exceeds the current time 1/2). -/
def masked (imp refr : FVec F S .f32) : FVec F S .f32 :=
  select (cmpf .ogt refr (broadcast S (Scalar.ofBits .f32 0x3F000000#32 : F .f32))) (broadcast S (Scalar.ofBits .f32 0x00000000#32 : F .f32)) imp

/-- The membrane after the masked impulse. -/
def membrane (imp mem refr : FVec F S .f32) : FVec F S .f32 := addf mem (masked imp refr)

/-- The spikes: the indicator of membrane ≥ 1, times the threshold 1. -/
def spikes (imp mem refr : FVec F S .f32) : FVec F S .f32 :=
  mulf (sitofp .f32 (extui 32 (cmpf .oge (membrane imp mem refr) (broadcast S (Scalar.ofBits .f32 0x3F800000#32 : F .f32))) (by decide)))
    (broadcast S (Scalar.ofBits .f32 0x3F800000#32 : F .f32))

/-- The membrane reset by subtraction: lowered by 1 where a spike is positive, then raised by 1 where it is negative. -/
def reset (imp mem refr : FVec F S .f32) : FVec F S .f32 :=
  select (cmpf .olt (spikes imp mem refr) (broadcast S (Scalar.ofBits .f32 0x00000000#32 : F .f32)))
    (addf (select (cmpf .ogt (spikes imp mem refr) (broadcast S (Scalar.ofBits .f32 0x00000000#32 : F .f32)))
        (subf (membrane imp mem refr) (broadcast S (Scalar.ofBits .f32 0x3F800000#32 : F .f32))) (membrane imp mem refr))
      (broadcast S (Scalar.ofBits .f32 0x3F800000#32 : F .f32)))
    (select (cmpf .ogt (spikes imp mem refr) (broadcast S (Scalar.ofBits .f32 0x00000000#32 : F .f32)))
      (subf (membrane imp mem refr) (broadcast S (Scalar.ofBits .f32 0x3F800000#32 : F .f32))) (membrane imp mem refr))

/-- The accumulated membrane after the masked impulse. -/
def accumulated (imp acc refr : FVec F S .f32) : FVec F S .f32 := addf acc (masked imp refr)

/-- The refractory time: 5/2 where a spike fell, unchanged elsewhere. -/
def refractory (imp mem refr : FVec F S .f32) : FVec F S .f32 :=
  select (cmpf .one (spikes imp mem refr) (broadcast S (Scalar.ofBits .f32 0x00000000#32 : F .f32)))
    (broadcast S (Scalar.ofBits .f32 0x40200000#32 : F .f32)) refr

/-- The spike counts, one more where a spike fell. -/
def counts (imp mem refr cnt : FVec F S .f32) : FVec F S .f32 :=
  addf cnt (sitofp .f32 (extui 32 (cmpf .one (spikes imp mem refr) (broadcast S (Scalar.ofBits .f32 0x00000000#32 : F .f32))) (by decide)))

/-- The spike train: the spikes times the current time 1/2. -/
def train (imp mem refr : FVec F S .f32) : FVec F S .f32 :=
  mulf (spikes imp mem refr) (broadcast S (Scalar.ofBits .f32 0x3F000000#32 : F .f32))

/-! ## A reshape of a result is the result of the reshaped arguments -/

variable {T : Shape}

theorem spikes_reshape (h : S.ShapeCasts T) (imp mem refr : FVec F S .f32) :
    shapeCast T (spikes imp mem refr) h = spikes (shapeCast T imp h) (shapeCast T mem h) (shapeCast T refr h) := rfl
theorem reset_reshape (h : S.ShapeCasts T) (imp mem refr : FVec F S .f32) :
    shapeCast T (reset imp mem refr) h = reset (shapeCast T imp h) (shapeCast T mem h) (shapeCast T refr h) := rfl
theorem accumulated_reshape (h : S.ShapeCasts T) (imp acc refr : FVec F S .f32) :
    shapeCast T (accumulated imp acc refr) h = accumulated (shapeCast T imp h) (shapeCast T acc h) (shapeCast T refr h) := rfl
theorem refractory_reshape (h : S.ShapeCasts T) (imp mem refr : FVec F S .f32) :
    shapeCast T (refractory imp mem refr) h = refractory (shapeCast T imp h) (shapeCast T mem h) (shapeCast T refr h) := rfl
theorem counts_reshape (h : S.ShapeCasts T) (imp mem refr cnt : FVec F S .f32) :
    shapeCast T (counts imp mem refr cnt) h = counts (shapeCast T imp h) (shapeCast T mem h) (shapeCast T refr h) (shapeCast T cnt h) := rfl
theorem train_reshape (h : S.ShapeCasts T) (imp mem refr : FVec F S .f32) :
    shapeCast T (train imp mem refr) h = train (shapeCast T imp h) (shapeCast T mem h) (shapeCast T refr h) := rfl

/-! ## The step's value -/

/-- The shape of the neurons' state, the same with a leading unit axis, and six of those stacked. -/
abbrev St : Shape := ⟨4, ![16, 56, 56, 256]⟩
abbrev St1 : Shape := ⟨5, ![1, 16, 56, 56, 256]⟩
abbrev St6 : Shape := ⟨5, ![6, 16, 56, 56, 256]⟩

/-- The six results, each under a new leading unit axis, concatenated along it. -/
def stacked (hb : St.BroadcastsInDim St1 (![1, 2, 3, 4] : Fin 4 → Fin St1.rank))
    (hc : Shape.Concatenates [St1, St1, St1, St1, St1, St1] St6 0)
    (imp mem acc refr cnt : FVec F St .f32) : FVec F St6 .f32 :=
  concatenate St6 0 [⟨St1, broadcastInDim St1 ![1, 2, 3, 4] hb (spikes imp mem refr)⟩,
    ⟨St1, broadcastInDim St1 ![1, 2, 3, 4] hb (reset imp mem refr)⟩,
    ⟨St1, broadcastInDim St1 ![1, 2, 3, 4] hb (accumulated imp acc refr)⟩,
    ⟨St1, broadcastInDim St1 ![1, 2, 3, 4] hb (refractory imp mem refr)⟩,
    ⟨St1, broadcastInDim St1 ![1, 2, 3, 4] hb (counts imp mem refr cnt)⟩,
    ⟨St1, broadcastInDim St1 ![1, 2, 3, 4] hb (train imp mem refr)⟩] hc

/-! ## The two spellings that agree on the extended reals -/

/-- A bit read unsigned as a float is the bit widened to 32 bits and read signed: the real 0 or 1. -/
theorem uitofp_bit (x : IVec S 1) : uitofp (F := Ideal) .f32 x = sitofp .f32 (extui 32 x (by decide)) := by
  funext i
  show (((x i).toNat : ℝ) : EReal) = ((((x i).setWidth 32).toInt : ℝ) : EReal)
  have h : ∀ b : BitVec 1, ((b.setWidth 32).toInt) = (b.toNat : ℤ) := by decide
  rw [h (x i)]; simp

/-- The unordered "not equal" is the ordered one. -/
theorem cmpf_une (x y : FVec Ideal S .f32) : cmpf .une x y = cmpf .one x y := rfl

end Cert.Lif

end
-- ==== Proof.LibNary6.lean ====
/-
  A host operation over SIX operand references (a concatenate of six arrays), read at its result.

  The result of an n-ary host operation is its function of the operands' contents, the operands given as a family
  indexed by position.  For a literal family of six references the family is spelt out here position by position, each
  operand's contents at its own reference, so that rewriting can go on into the operands; and the computation of what a buffer
  holds after a line of host operations is repeated here with this form among its rules.
-/
import Idealize.ShloMosaic.Lib.StableHlo.Run

noncomputable section

namespace Idealize.ShloMosaic.StableHlo

variable {τ : Topo} {sig : RefSig} {Val : EltTy → Type}

/-- The result of an operation over the six references x0 … x5, at its result reference: its function of the six
    operands' contents, each read at its own reference. -/
theorem nary6_result {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- The same, with the result reference kept out of the rewriting index, for use as a simplification rule. -/
theorem nary6_result' {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

/-- What one buffer holds after a line of host operations, computed in one pass: at an operation's own result reference
    its function's value, at any other reference what was there before (the references' inequalities decided); a
    six-operand operation by nary6_result'. -/
macro "after_results6" : tactic =>
  `(tactic| (simp (disch := decide) only [after_cons, after_nil,
      nullary_result', unary_result', binary_result', ternary_result', quaternary_result', reshape_result', nary6_result',
      nullary_result_ne', unary_result_ne', binary_result_ne', ternary_result_ne', quaternary_result_ne', reshape_result_ne',
      nary_result_ne']))

end Idealize.ShloMosaic.StableHlo

end
-- ==== Proof.KernelIdealValue.lean ====
/-
  What the idealized kernel's program computes: one step of the neurons' update of its five arguments.

  Every window of the region has block index (t, 0) at point t, so entry y of any block at point t lies at row
  1024·t + y₀, column y₁ of its array.  The body's six stored values are, entry by entry, the step's six results of the
  loaded blocks (the body's same-shape casts being the identity); hence what point t writes back into a result array is
  the block at t of that result computed over the WHOLE reshaped arrays.  Row r lies in the block of point ⌊r / 1024⌋, so the
  49 blocks cover each result array, which therefore ends as the step's result of the reshaped arguments.

  The later operations reshape the six result arrays back to [16,56,56,256], give each a leading unit axis and concatenate.
  A result of reshaped arrays, reshaped, is the result of the arrays reshaped twice; and a reshape there and back is the
  identity.  So the program's result is the step's value of the five arguments as launched.
-/
import proofs.«178735_j66967130079991_1_alg».proof.Proof.KernelIdealRegion
import proofs.«178735_j66967130079991_1_alg».proof.Proof.LifSpec
import proofs.«178735_j66967130079991_1_alg».proof.Proof.LibNary6
import Idealize.ShloMosaic.Lib.Pipeline.Value
import Idealize.ShloMosaic.Lib.StableHlo.Run

set_option maxRecDepth 16384

noncomputable section

namespace Cert.KernelIdeal.StepValue

open Cert.KernelIdeal Cert.KernelIdeal.Gen Cert.KernelIdeal.Region
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem origin : (![0, 0] : Fin 2 → Nat) = fun _ => 0 := funext fun a => by fin_cases a <;> rfl

theorem pay_spikes (x0 x1 x3 : Vec F S1024x256 .f32) : k0_pay8 x0 x1 x3 = Lif.spikes x0 x1 x3 := by
  unfold k0_pay8 k0_pay6 k0_pay5 k0_pay3
  simp only [shapeCast_self]
  rfl
theorem pay_reset (x0 x1 x3 : Vec F S1024x256 .f32) : k0_pay9 x0 x1 x3 = Lif.reset x0 x1 x3 := by
  unfold k0_pay9
  rw [pay_spikes]
  unfold k0_pay6 k0_pay5 k0_pay3
  simp only [shapeCast_self]
  rfl
theorem pay_accumulated (x0 x2 x3 : Vec F S1024x256 .f32) : k0_pay7 x0 x2 x3 = Lif.accumulated x0 x2 x3 := by
  unfold k0_pay7 k0_pay5 k0_pay3
  simp only [shapeCast_self]
  rfl
theorem pay_refractory (x0 x1 x3 : Vec F S1024x256 .f32) : k0_pay10 x0 x1 x3 = Lif.refractory x0 x1 x3 := by
  unfold k0_pay10
  rw [pay_spikes]
  unfold k0_pay3
  simp only [shapeCast_self]
  rfl
theorem pay_counts (x0 x1 x3 x4 : Vec F S1024x256 .f32) : k0_pay1 (k0_pay4 x4) (k0_pay11 x0 x1 x3) = Lif.counts x0 x1 x3 x4 := by
  unfold k0_pay1 k0_pay4 k0_pay11
  rw [pay_spikes]
  simp only [shapeCast_self]
  rfl
theorem pay_train (x0 x1 x3 : Vec F S1024x256 .f32) : k0_pay2 (k0_pay8 x0 x1 x3) = Lif.train x0 x1 x3 := by
  unfold k0_pay2
  rw [pay_spikes]
  rfl

/-- Every window's block at point t is rows 1024·t … of its array: block index (t, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-! ## Where a block's entries lie -/

/-- Entry y of a block at point t lies at row 1024·t + y₀, column y₁ of the arrays: read through the first result window. -/
def pos (t : Fin cfg0.N) (y : S1024x256.Idx) : S50176x256.Idx := ((cfg0.win 5).blk t).view.emb y

/-- Every other window places entry y of its block at the same position. -/
theorem pos_in0 (t : Fin cfg0.N) (y : S1024x256.Idx) : ((cfg0.win 0).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_0.index t (0 : Fin 2) * 1024 + 1 * (y 0).val = win0_5.index t (0 : Fin 2) * 1024 + 1 * (y 0).val; omega
  | ⟨1, _⟩ => show win0_0.index t (1 : Fin 2) * 256 + 1 * (y 1).val = win0_5.index t (1 : Fin 2) * 256 + 1 * (y 1).val; omega
theorem pos_in1 (t : Fin cfg0.N) (y : S1024x256.Idx) : ((cfg0.win 1).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_1.index t (0 : Fin 2) * 1024 + 1 * (y 0).val = win0_5.index t (0 : Fin 2) * 1024 + 1 * (y 0).val; omega
  | ⟨1, _⟩ => show win0_1.index t (1 : Fin 2) * 256 + 1 * (y 1).val = win0_5.index t (1 : Fin 2) * 256 + 1 * (y 1).val; omega
theorem pos_in2 (t : Fin cfg0.N) (y : S1024x256.Idx) : ((cfg0.win 2).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_2.index t (0 : Fin 2) * 1024 + 1 * (y 0).val = win0_5.index t (0 : Fin 2) * 1024 + 1 * (y 0).val; omega
  | ⟨1, _⟩ => show win0_2.index t (1 : Fin 2) * 256 + 1 * (y 1).val = win0_5.index t (1 : Fin 2) * 256 + 1 * (y 1).val; omega
theorem pos_in3 (t : Fin cfg0.N) (y : S1024x256.Idx) : ((cfg0.win 3).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_3.index t (0 : Fin 2) * 1024 + 1 * (y 0).val = win0_5.index t (0 : Fin 2) * 1024 + 1 * (y 0).val; omega
  | ⟨1, _⟩ => show win0_3.index t (1 : Fin 2) * 256 + 1 * (y 1).val = win0_5.index t (1 : Fin 2) * 256 + 1 * (y 1).val; omega
theorem pos_in4 (t : Fin cfg0.N) (y : S1024x256.Idx) : ((cfg0.win 4).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_4.index t (0 : Fin 2) * 1024 + 1 * (y 0).val = win0_5.index t (0 : Fin 2) * 1024 + 1 * (y 0).val; omega
  | ⟨1, _⟩ => show win0_4.index t (1 : Fin 2) * 256 + 1 * (y 1).val = win0_5.index t (1 : Fin 2) * 256 + 1 * (y 1).val; omega
theorem pos_out6 (t : Fin cfg0.N) (y : S1024x256.Idx) : ((cfg0.win 6).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_6.index t (0 : Fin 2) * 1024 + 1 * (y 0).val = win0_5.index t (0 : Fin 2) * 1024 + 1 * (y 0).val; omega
  | ⟨1, _⟩ => show win0_6.index t (1 : Fin 2) * 256 + 1 * (y 1).val = win0_5.index t (1 : Fin 2) * 256 + 1 * (y 1).val; omega
theorem pos_out7 (t : Fin cfg0.N) (y : S1024x256.Idx) : ((cfg0.win 7).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_7.index t (0 : Fin 2) * 1024 + 1 * (y 0).val = win0_5.index t (0 : Fin 2) * 1024 + 1 * (y 0).val; omega
  | ⟨1, _⟩ => show win0_7.index t (1 : Fin 2) * 256 + 1 * (y 1).val = win0_5.index t (1 : Fin 2) * 256 + 1 * (y 1).val; omega
theorem pos_out8 (t : Fin cfg0.N) (y : S1024x256.Idx) : ((cfg0.win 8).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_8.index t (0 : Fin 2) * 1024 + 1 * (y 0).val = win0_5.index t (0 : Fin 2) * 1024 + 1 * (y 0).val; omega
  | ⟨1, _⟩ => show win0_8.index t (1 : Fin 2) * 256 + 1 * (y 1).val = win0_5.index t (1 : Fin 2) * 256 + 1 * (y 1).val; omega
theorem pos_out9 (t : Fin cfg0.N) (y : S1024x256.Idx) : ((cfg0.win 9).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_9.index t (0 : Fin 2) * 1024 + 1 * (y 0).val = win0_5.index t (0 : Fin 2) * 1024 + 1 * (y 0).val; omega
  | ⟨1, _⟩ => show win0_9.index t (1 : Fin 2) * 256 + 1 * (y 1).val = win0_5.index t (1 : Fin 2) * 256 + 1 * (y 1).val; omega
theorem pos_out10 (t : Fin cfg0.N) (y : S1024x256.Idx) : ((cfg0.win 10).blk t).view.emb y = pos t y := by
  obtain ⟨e00, e01, e10, e11, e20, e21, e30, e31, e40, e41, e50, e51, e60, e61, e70, e71, e80, e81, e90, e91, ea0, ea1⟩ := idx_facts t
  funext a; apply Fin.ext
  match a with
  | ⟨0, _⟩ => show win0_10.index t (0 : Fin 2) * 1024 + 1 * (y 0).val = win0_5.index t (0 : Fin 2) * 1024 + 1 * (y 0).val; omega
  | ⟨1, _⟩ => show win0_10.index t (1 : Fin 2) * 256 + 1 * (y 1).val = win0_5.index t (1 : Fin 2) * 256 + 1 * (y 1).val; omega

/-- Each input's block at point t is its array read at those positions. -/
theorem blk0 (c : Dev nD) (t : Fin cfg0.N) : iblk m c 0 t = fun y => V m c main_v0 (pos t y) := by
  funext y
  show V m c main_v0 (((cfg0.win 0).blk t).view.emb y) = _
  rw [pos_in0]
theorem blk1 (c : Dev nD) (t : Fin cfg0.N) : iblk m c 1 t = fun y => V m c main_v1 (pos t y) := by
  funext y
  show V m c main_v1 (((cfg0.win 1).blk t).view.emb y) = _
  rw [pos_in1]
theorem blk2 (c : Dev nD) (t : Fin cfg0.N) : iblk m c 2 t = fun y => V m c main_v2 (pos t y) := by
  funext y
  show V m c main_v2 (((cfg0.win 2).blk t).view.emb y) = _
  rw [pos_in2]
theorem blk3 (c : Dev nD) (t : Fin cfg0.N) : iblk m c 3 t = fun y => V m c main_v3 (pos t y) := by
  funext y
  show V m c main_v3 (((cfg0.win 3).blk t).view.emb y) = _
  rw [pos_in3]
theorem blk4 (c : Dev nD) (t : Fin cfg0.N) : iblk m c 4 t = fun y => V m c main_v4 (pos t y) := by
  funext y
  show V m c main_v4 (((cfg0.win 4).blk t).view.emb y) = _
  rw [pos_in4]

/-! ## What each point writes back is its block of the arrays' own function -/

theorem flushed5 (c : Dev nD) (t : Fin cfg0.N) :
    (dats m 0 c).flushed 5 t = ((cfg0.win 5).blk t).view.read (Elt F) (Lif.spikes (V m c main_v0) (V m c main_v1) (V m c main_v3)) := by
  show (cfg0.win 5).cut (grid0.coords t) ((dats m 0 c).after 5 t) = _
  rw [after5]
  unfold spikesBlk
  rw [View.canon_unit_zero origin]
  simp only [View.ld_unit_zero (S := S1024x256) origin]
  rw [pay_spikes, blk0, blk1, blk3]
  rfl
theorem flushed6 (c : Dev nD) (t : Fin cfg0.N) :
    (dats m 0 c).flushed 6 t = ((cfg0.win 6).blk t).view.read (Elt F) (Lif.reset (V m c main_v0) (V m c main_v1) (V m c main_v3)) := by
  show (cfg0.win 6).cut (grid0.coords t) ((dats m 0 c).after 6 t) = _
  rw [after6]
  unfold memBlk
  rw [View.canon_unit_zero origin]
  simp only [View.ld_unit_zero (S := S1024x256) origin]
  rw [pay_reset, blk0, blk1, blk3]
  funext y
  show Lif.reset (V m c main_v0) (V m c main_v1) (V m c main_v3) (pos t y) = Lif.reset (V m c main_v0) (V m c main_v1) (V m c main_v3) (((cfg0.win 6).blk t).view.emb y)
  rw [pos_out6]
theorem flushed7 (c : Dev nD) (t : Fin cfg0.N) :
    (dats m 0 c).flushed 7 t = ((cfg0.win 7).blk t).view.read (Elt F) (Lif.accumulated (V m c main_v0) (V m c main_v2) (V m c main_v3)) := by
  show (cfg0.win 7).cut (grid0.coords t) ((dats m 0 c).after 7 t) = _
  rw [after7]
  unfold accBlk
  rw [View.canon_unit_zero origin]
  simp only [View.ld_unit_zero (S := S1024x256) origin]
  rw [pay_accumulated, blk0, blk2, blk3]
  funext y
  show Lif.accumulated (V m c main_v0) (V m c main_v2) (V m c main_v3) (pos t y) = Lif.accumulated (V m c main_v0) (V m c main_v2) (V m c main_v3) (((cfg0.win 7).blk t).view.emb y)
  rw [pos_out7]
theorem flushed8 (c : Dev nD) (t : Fin cfg0.N) :
    (dats m 0 c).flushed 8 t = ((cfg0.win 8).blk t).view.read (Elt F) (Lif.refractory (V m c main_v0) (V m c main_v1) (V m c main_v3)) := by
  show (cfg0.win 8).cut (grid0.coords t) ((dats m 0 c).after 8 t) = _
  rw [after8]
  unfold refracBlk
  rw [View.canon_unit_zero origin]
  simp only [View.ld_unit_zero (S := S1024x256) origin]
  rw [pay_refractory, blk0, blk1, blk3]
  funext y
  show Lif.refractory (V m c main_v0) (V m c main_v1) (V m c main_v3) (pos t y) = Lif.refractory (V m c main_v0) (V m c main_v1) (V m c main_v3) (((cfg0.win 8).blk t).view.emb y)
  rw [pos_out8]
theorem flushed9 (c : Dev nD) (t : Fin cfg0.N) :
    (dats m 0 c).flushed 9 t = ((cfg0.win 9).blk t).view.read (Elt F) (Lif.counts (V m c main_v0) (V m c main_v1) (V m c main_v3) (V m c main_v4)) := by
  show (cfg0.win 9).cut (grid0.coords t) ((dats m 0 c).after 9 t) = _
  rw [after9]
  unfold countsBlk
  rw [View.canon_unit_zero origin]
  simp only [View.ld_unit_zero (S := S1024x256) origin]
  rw [pay_counts, blk0, blk1, blk3, blk4]
  funext y
  show Lif.counts (V m c main_v0) (V m c main_v1) (V m c main_v3) (V m c main_v4) (pos t y) = Lif.counts (V m c main_v0) (V m c main_v1) (V m c main_v3) (V m c main_v4) (((cfg0.win 9).blk t).view.emb y)
  rw [pos_out9]
theorem flushed10 (c : Dev nD) (t : Fin cfg0.N) :
    (dats m 0 c).flushed 10 t = ((cfg0.win 10).blk t).view.read (Elt F) (Lif.train (V m c main_v0) (V m c main_v1) (V m c main_v3)) := by
  show (cfg0.win 10).cut (grid0.coords t) ((dats m 0 c).after 10 t) = _
  rw [after10]
  unfold trainBlk
  rw [View.canon_unit_zero origin]
  simp only [View.ld_unit_zero (S := S1024x256) origin]
  rw [pay_train, blk0, blk1, blk3]
  funext y
  show Lif.train (V m c main_v0) (V m c main_v1) (V m c main_v3) (pos t y) = Lif.train (V m c main_v0) (V m c main_v1) (V m c main_v3) (((cfg0.win 10).blk t).view.emb y)
  rw [pos_out10]

/-! ## The blocks tile the arrays -/

/-- An index is in point t's block of a result array iff each coordinate is in the block's range on its axis. -/
theorem mem_blk5 (t : Fin cfg0.N) (i : S50176x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v5_0).slice (win0_5.rect t)).set ↔ _
  rw [View.set_slice_whole, Rect.mem_set_unit]
  exact Iff.rfl
theorem mem_blk6 (t : Fin cfg0.N) (i : S50176x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v5_1).slice (win0_6.rect t)).set ↔ _
  rw [View.set_slice_whole, Rect.mem_set_unit]
  exact Iff.rfl
theorem mem_blk7 (t : Fin cfg0.N) (i : S50176x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v5_2).slice (win0_7.rect t)).set ↔ _
  rw [View.set_slice_whole, Rect.mem_set_unit]
  exact Iff.rfl
theorem mem_blk8 (t : Fin cfg0.N) (i : S50176x256.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v5_3).slice (win0_8.rect t)).set ↔ _
  rw [View.set_slice_whole, Rect.mem_set_unit]
  exact Iff.rfl
theorem mem_blk9 (t : Fin cfg0.N) (i : S50176x256.Idx) :
    i ∈ ((cfg0.win 9).blk t).view.set ↔ ∀ a : Fin 2, win0_9.index t a * S1024x256.size a ≤ (i a).val ∧ (i a).val < win0_9.index t a * S1024x256.size a + S1024x256.size a := by
  show i ∈ ((View.whole main_v5_4).slice (win0_9.rect t)).set ↔ _
  rw [View.set_slice_whole, Rect.mem_set_unit]
  exact Iff.rfl
theorem mem_blk10 (t : Fin cfg0.N) (i : S50176x256.Idx) :
    i ∈ ((cfg0.win 10).blk t).view.set ↔ ∀ a : Fin 2, win0_10.index t a * S1024x256.size a ≤ (i a).val ∧ (i a).val < win0_10.index t a * S1024x256.size a + S1024x256.size a := by
  show i ∈ ((View.whole main_v5_5).slice (win0_10.rect t)).set ↔ _
  rw [View.set_slice_whole, Rect.mem_set_unit]
  exact Iff.rfl

/-- The point whose block holds row r: ⌊r / 1024⌋. -/
def pointOf (i : S50176x256.Idx) : Fin cfg0.N :=
  ⟨(i 0).val / 1024, lt_of_lt_of_eq (by have h : (i 0).val < 50176 := (i 0).isLt; omega : (i 0).val / 1024 < 49) (show cfg0.N = 49 from N_0).symm⟩

/-- Every index of a result array is in some written-back block: row r in the block of point ⌊r / 1024⌋. -/
theorem cover5 (i : S50176x256.Idx) : ∃ t : Fin cfg0.N, (cfg0.win 5).flush t = true ∧ i ∈ ((cfg0.win 5).blk t).view.set := by
  have hi0 : (i 0).val < 50176 := (i 0).isLt
  have hi1 : (i 1).val < 256 := (i 1).isLt
  have ht : (pointOf i).val = (i 0).val / 1024 := rfl
  refine ⟨pointOf i, flush0_5 _, ?_⟩
  rw [mem_blk5]
  obtain ⟨e00, e01, e10, e11, e20, e21, e30, e31, e40, e41, e50, e51, e60, e61, e70, e71, e80, e81, e90, e91, ea0, ea1⟩ := idx_facts (pointOf i)
  intro a
  match a with
  | ⟨0, _⟩ => show win0_5.index (pointOf i) (0 : Fin 2) * 1024 ≤ (i 0).val ∧ (i 0).val < win0_5.index (pointOf i) (0 : Fin 2) * 1024 + 1024; omega
  | ⟨1, _⟩ => show win0_5.index (pointOf i) (1 : Fin 2) * 256 ≤ (i 1).val ∧ (i 1).val < win0_5.index (pointOf i) (1 : Fin 2) * 256 + 256; omega
theorem cover6 (i : S50176x256.Idx) : ∃ t : Fin cfg0.N, (cfg0.win 6).flush t = true ∧ i ∈ ((cfg0.win 6).blk t).view.set := by
  have hi0 : (i 0).val < 50176 := (i 0).isLt
  have hi1 : (i 1).val < 256 := (i 1).isLt
  have ht : (pointOf i).val = (i 0).val / 1024 := rfl
  refine ⟨pointOf i, flush0_6 _, ?_⟩
  rw [mem_blk6]
  obtain ⟨e00, e01, e10, e11, e20, e21, e30, e31, e40, e41, e50, e51, e60, e61, e70, e71, e80, e81, e90, e91, ea0, ea1⟩ := idx_facts (pointOf i)
  intro a
  match a with
  | ⟨0, _⟩ => show win0_6.index (pointOf i) (0 : Fin 2) * 1024 ≤ (i 0).val ∧ (i 0).val < win0_6.index (pointOf i) (0 : Fin 2) * 1024 + 1024; omega
  | ⟨1, _⟩ => show win0_6.index (pointOf i) (1 : Fin 2) * 256 ≤ (i 1).val ∧ (i 1).val < win0_6.index (pointOf i) (1 : Fin 2) * 256 + 256; omega
theorem cover7 (i : S50176x256.Idx) : ∃ t : Fin cfg0.N, (cfg0.win 7).flush t = true ∧ i ∈ ((cfg0.win 7).blk t).view.set := by
  have hi0 : (i 0).val < 50176 := (i 0).isLt
  have hi1 : (i 1).val < 256 := (i 1).isLt
  have ht : (pointOf i).val = (i 0).val / 1024 := rfl
  refine ⟨pointOf i, flush0_7 _, ?_⟩
  rw [mem_blk7]
  obtain ⟨e00, e01, e10, e11, e20, e21, e30, e31, e40, e41, e50, e51, e60, e61, e70, e71, e80, e81, e90, e91, ea0, ea1⟩ := idx_facts (pointOf i)
  intro a
  match a with
  | ⟨0, _⟩ => show win0_7.index (pointOf i) (0 : Fin 2) * 1024 ≤ (i 0).val ∧ (i 0).val < win0_7.index (pointOf i) (0 : Fin 2) * 1024 + 1024; omega
  | ⟨1, _⟩ => show win0_7.index (pointOf i) (1 : Fin 2) * 256 ≤ (i 1).val ∧ (i 1).val < win0_7.index (pointOf i) (1 : Fin 2) * 256 + 256; omega
theorem cover8 (i : S50176x256.Idx) : ∃ t : Fin cfg0.N, (cfg0.win 8).flush t = true ∧ i ∈ ((cfg0.win 8).blk t).view.set := by
  have hi0 : (i 0).val < 50176 := (i 0).isLt
  have hi1 : (i 1).val < 256 := (i 1).isLt
  have ht : (pointOf i).val = (i 0).val / 1024 := rfl
  refine ⟨pointOf i, flush0_8 _, ?_⟩
  rw [mem_blk8]
  obtain ⟨e00, e01, e10, e11, e20, e21, e30, e31, e40, e41, e50, e51, e60, e61, e70, e71, e80, e81, e90, e91, ea0, ea1⟩ := idx_facts (pointOf i)
  intro a
  match a with
  | ⟨0, _⟩ => show win0_8.index (pointOf i) (0 : Fin 2) * 1024 ≤ (i 0).val ∧ (i 0).val < win0_8.index (pointOf i) (0 : Fin 2) * 1024 + 1024; omega
  | ⟨1, _⟩ => show win0_8.index (pointOf i) (1 : Fin 2) * 256 ≤ (i 1).val ∧ (i 1).val < win0_8.index (pointOf i) (1 : Fin 2) * 256 + 256; omega
theorem cover9 (i : S50176x256.Idx) : ∃ t : Fin cfg0.N, (cfg0.win 9).flush t = true ∧ i ∈ ((cfg0.win 9).blk t).view.set := by
  have hi0 : (i 0).val < 50176 := (i 0).isLt
  have hi1 : (i 1).val < 256 := (i 1).isLt
  have ht : (pointOf i).val = (i 0).val / 1024 := rfl
  refine ⟨pointOf i, flush0_9 _, ?_⟩
  rw [mem_blk9]
  obtain ⟨e00, e01, e10, e11, e20, e21, e30, e31, e40, e41, e50, e51, e60, e61, e70, e71, e80, e81, e90, e91, ea0, ea1⟩ := idx_facts (pointOf i)
  intro a
  match a with
  | ⟨0, _⟩ => show win0_9.index (pointOf i) (0 : Fin 2) * 1024 ≤ (i 0).val ∧ (i 0).val < win0_9.index (pointOf i) (0 : Fin 2) * 1024 + 1024; omega
  | ⟨1, _⟩ => show win0_9.index (pointOf i) (1 : Fin 2) * 256 ≤ (i 1).val ∧ (i 1).val < win0_9.index (pointOf i) (1 : Fin 2) * 256 + 256; omega
theorem cover10 (i : S50176x256.Idx) : ∃ t : Fin cfg0.N, (cfg0.win 10).flush t = true ∧ i ∈ ((cfg0.win 10).blk t).view.set := by
  have hi0 : (i 0).val < 50176 := (i 0).isLt
  have hi1 : (i 1).val < 256 := (i 1).isLt
  have ht : (pointOf i).val = (i 0).val / 1024 := rfl
  refine ⟨pointOf i, flush0_10 _, ?_⟩
  rw [mem_blk10]
  obtain ⟨e00, e01, e10, e11, e20, e21, e30, e31, e40, e41, e50, e51, e60, e61, e70, e71, e80, e81, e90, e91, ea0, ea1⟩ := idx_facts (pointOf i)
  intro a
  match a with
  | ⟨0, _⟩ => show win0_10.index (pointOf i) (0 : Fin 2) * 1024 ≤ (i 0).val ∧ (i 0).val < win0_10.index (pointOf i) (0 : Fin 2) * 1024 + 1024; omega
  | ⟨1, _⟩ => show win0_10.index (pointOf i) (1 : Fin 2) * 256 ≤ (i 1).val ∧ (i 1).val < win0_10.index (pointOf i) (1 : Fin 2) * 256 + 256; omega

/-! ## The result arrays after the run -/

theorem final5 (c : Dev nD) : (dats m 0 c).arrAt 5 cfg0.N = Lif.spikes (V m c main_v0) (V m c main_v1) (V m c main_v3) :=
  (dats m 0 c).arrAt_eq_of_cover 5 _ (fun t _ => flushed5 m c t) cover5
theorem final6 (c : Dev nD) : (dats m 0 c).arrAt 6 cfg0.N = Lif.reset (V m c main_v0) (V m c main_v1) (V m c main_v3) :=
  (dats m 0 c).arrAt_eq_of_cover 6 _ (fun t _ => flushed6 m c t) cover6
theorem final7 (c : Dev nD) : (dats m 0 c).arrAt 7 cfg0.N = Lif.accumulated (V m c main_v0) (V m c main_v2) (V m c main_v3) :=
  (dats m 0 c).arrAt_eq_of_cover 7 _ (fun t _ => flushed7 m c t) cover7
theorem final8 (c : Dev nD) : (dats m 0 c).arrAt 8 cfg0.N = Lif.refractory (V m c main_v0) (V m c main_v1) (V m c main_v3) :=
  (dats m 0 c).arrAt_eq_of_cover 8 _ (fun t _ => flushed8 m c t) cover8
theorem final9 (c : Dev nD) : (dats m 0 c).arrAt 9 cfg0.N = Lif.counts (V m c main_v0) (V m c main_v1) (V m c main_v3) (V m c main_v4) :=
  (dats m 0 c).arrAt_eq_of_cover 9 _ (fun t _ => flushed9 m c t) cover9
theorem final10 (c : Dev nD) : (dats m 0 c).arrAt 10 cfg0.N = Lif.train (V m c main_v0) (V m c main_v1) (V m c main_v3) :=
  (dats m 0 c).arrAt_eq_of_cover 10 _ (fun t _ => flushed10 m c t) cover10

/-! ## The reshapes before the region -/

/-- The region finds each reshaped copy at the reshape of its argument. -/
theorem entry0 (c : Dev nD) : V m c main_v0 = shapeCast (s := S16x56x56x256) S50176x256 (m ((c : Thread nD τ).loc main_arg0)) Gen.shapeCasts_S16x56x56x256_S50176x256 := by
  show StableHlo.after hostOps0 (fun b => m (c, b)) (Proc.devRef .tc main_v0) = _
  after_results
  rfl
theorem entry1 (c : Dev nD) : V m c main_v1 = shapeCast (s := S16x56x56x256) S50176x256 (m ((c : Thread nD τ).loc main_arg1)) Gen.shapeCasts_S16x56x56x256_S50176x256 := by
  show StableHlo.after hostOps0 (fun b => m (c, b)) (Proc.devRef .tc main_v1) = _
  after_results
  rfl
theorem entry2 (c : Dev nD) : V m c main_v2 = shapeCast (s := S16x56x56x256) S50176x256 (m ((c : Thread nD τ).loc main_arg2)) Gen.shapeCasts_S16x56x56x256_S50176x256 := by
  show StableHlo.after hostOps0 (fun b => m (c, b)) (Proc.devRef .tc main_v2) = _
  after_results
  rfl
theorem entry3 (c : Dev nD) : V m c main_v3 = shapeCast (s := S16x56x56x256) S50176x256 (m ((c : Thread nD τ).loc main_arg3)) Gen.shapeCasts_S16x56x56x256_S50176x256 := by
  show StableHlo.after hostOps0 (fun b => m (c, b)) (Proc.devRef .tc main_v3) = _
  after_results
  rfl
theorem entry4 (c : Dev nD) : V m c main_v4 = shapeCast (s := S16x56x56x256) S50176x256 (m ((c : Thread nD τ).loc main_arg4)) Gen.shapeCasts_S16x56x56x256_S50176x256 := by
  show StableHlo.after hostOps0 (fun b => m (c, b)) (Proc.devRef .tc main_v4) = _
  after_results
  rfl

/-! ## The operations after the region -/

/-- The buffers after the region: the entry contents with the region's arrays at their final contents. -/
abbrev afterRegion (c : Dev nD) : Valuation τ sig (Elt F) :=
  Pipeline.withArrays (cfgs 0).spec c (V0 m c) fun w => (dats m 0 c).arrAt w (cfgs 0).N

/-- Each result array after the region is its function of the reshaped copies. -/
theorem region_out0 (c : Dev nD) : afterRegion m c (Proc.devRef .tc main_v5_0) = Lif.spikes (V m c main_v0) (V m c main_v1) (V m c main_v3) :=
  (Pipeline.withArrays_arr spec0 launch0.win.arr_inj c _ _ 5).trans (final5 m c)
theorem region_out1 (c : Dev nD) : afterRegion m c (Proc.devRef .tc main_v5_1) = Lif.reset (V m c main_v0) (V m c main_v1) (V m c main_v3) :=
  (Pipeline.withArrays_arr spec0 launch0.win.arr_inj c _ _ 6).trans (final6 m c)
theorem region_out2 (c : Dev nD) : afterRegion m c (Proc.devRef .tc main_v5_2) = Lif.accumulated (V m c main_v0) (V m c main_v2) (V m c main_v3) :=
  (Pipeline.withArrays_arr spec0 launch0.win.arr_inj c _ _ 7).trans (final7 m c)
theorem region_out3 (c : Dev nD) : afterRegion m c (Proc.devRef .tc main_v5_3) = Lif.refractory (V m c main_v0) (V m c main_v1) (V m c main_v3) :=
  (Pipeline.withArrays_arr spec0 launch0.win.arr_inj c _ _ 8).trans (final8 m c)
theorem region_out4 (c : Dev nD) : afterRegion m c (Proc.devRef .tc main_v5_4) = Lif.counts (V m c main_v0) (V m c main_v1) (V m c main_v3) (V m c main_v4) :=
  (Pipeline.withArrays_arr spec0 launch0.win.arr_inj c _ _ 9).trans (final9 m c)
theorem region_out5 (c : Dev nD) : afterRegion m c (Proc.devRef .tc main_v5_5) = Lif.train (V m c main_v0) (V m c main_v1) (V m c main_v3) :=
  (Pipeline.withArrays_arr spec0 launch0.win.arr_inj c _ _ 10).trans (final10 m c)

/-- The thirteen later operations leave in the result buffer the six result arrays, each reshaped back and given a leading
    unit axis, concatenated along it. -/
theorem tail_eq (c : Dev nD) :
    Pipeline.afterTail₀ cfgs (dats m) 0 (V0 m) [hostOps1] c main_v18
      = concatenate S6x16x56x56x256 0
          [⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_0)) Gen.shapeCasts_S50176x256_S16x56x56x256)⟩,
           ⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_1)) Gen.shapeCasts_S50176x256_S16x56x56x256)⟩,
           ⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_2)) Gen.shapeCasts_S50176x256_S16x56x56x256)⟩,
           ⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_3)) Gen.shapeCasts_S50176x256_S16x56x56x256)⟩,
           ⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_4)) Gen.shapeCasts_S50176x256_S16x56x56x256)⟩,
           ⟨S1x16x56x56x256, broadcastInDim S1x16x56x56x256 ![1, 2, 3, 4] Gen.bcast_S16x56x56x256_S1x16x56x56x256_1_2_3_4 (shapeCast (s := S50176x256) S16x56x56x256 (afterRegion m c (Proc.devRef .tc main_v5_5)) Gen.shapeCasts_S50176x256_S16x56x56x256)⟩]
          Gen.concatenates_S1x16x56x56x256_S1x16x56x56x256_S1x16x56x56x256_S1x16x56x56x256_S1x16x56x56x256_S1x16x56x56x256_S6x16x56x56x256_d0 := by
  unfold Pipeline.afterTail₀
  show StableHlo.after hostOps1 _ (Proc.devRef .tc main_v18) = _
  after_results6
  rfl

/-- The result buffer ends at the step's value of the five arguments: each result array is its function of the reshaped
    arguments, a reshape of such a function is the function of the reshapes, and a reshape there and back is the identity. -/
theorem tail_value (c : Dev nD) :
    Pipeline.afterTail₀ cfgs (dats m) 0 (V0 m) [hostOps1] c main_v18
      = Lif.stacked Gen.bcast_S16x56x56x256_S1x16x56x56x256_1_2_3_4
          Gen.concatenates_S1x16x56x56x256_S1x16x56x56x256_S1x16x56x56x256_S1x16x56x56x256_S1x16x56x56x256_S1x16x56x56x256_S6x16x56x56x256_d0
          (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, region_out0, region_out1, region_out2, region_out3, region_out4, region_out5, entry0, entry1, entry2, entry3, entry4]
  rw [Lif.spikes_reshape, Lif.reset_reshape, Lif.accumulated_reshape, Lif.refractory_reshape, Lif.counts_reshape, Lif.train_reshape]
  rw [shapeCast_shapeCast, shapeCast_shapeCast, shapeCast_shapeCast, shapeCast_shapeCast, shapeCast_shapeCast]
  rfl

/-! ## The run, read -/

/-- Every weakly fair execution of @main terminates with the result buffer at the step's value of the arguments and the
    arguments as launched. -/
theorem run : θ_run defs (onTc (τ := τ) (main (F := F))) ⟨m, fun _ => 0, ρ⟩ fun r => ∀ c : Dev nD,
      r.2.mem ((c.tc : Thread nD τ).loc main_v18)
        = Lif.stacked Gen.bcast_S16x56x56x256_S1x16x56x56x256_1_2_3_4
            Gen.concatenates_S1x16x56x56x256_S1x16x56x56x256_S1x16x56x56x256_S1x16x56x56x256_S1x16x56x56x256_S1x16x56x56x256_S6x16x56x56x256_d0
            (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v18 (Pipeline.mem_restRefs_of main_v18 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.StepValue

end
-- ==== Proof.RefValue.lean ====
/-
  The reference's value at the ideal instance is one step of the neurons' update.

  The reference computes the six results over whole [16,56,56,256] arrays with the same entrywise operations as the step's
  definition, its constants splatted from scalars, the indicator of a test read unsigned, and "not equal" unordered; it then
  gives each result a leading unit axis and concatenates the six.  On the extended reals a splatted constant is the constant
  array, the unsigned reading of a bit is its signed reading after widening, and the unordered "not equal" is the ordered
  one; with these three the reference's term is the step's, operation for operation.
-/
import proofs.«178735_j66967130079991_1_alg».proof.Proof.RefRun
import proofs.«178735_j66967130079991_1_alg».proof.Proof.LifSpec

set_option maxRecDepth 16384

noncomputable section

namespace Cert.ReferenceIdeal.StepValue

open Cert.ReferenceIdeal Cert.ReferenceIdeal.Value
open Idealize.ShloMosaic Idealize.ShloMosaic.TcCoe Idealize.SL.Sem

/-- A scalar constant splatted to the state's shape is the constant array. -/
theorem splat (w : BitVec 32) :
    broadcastInDim S16x56x56x256 ![] Gen.bcast_S_S16x56x56x256 (constant (F := Ideal) S_ .f32 w)
      = broadcast S16x56x56x256 (Scalar.ofBits .f32 w : Ideal .f32) := rfl

/-- The reference's result is the step's value of its five arguments. -/
theorem result_eq (m : (ℓ : Loc nD τ sig) → Buf (Elt Ideal) ℓ) (c : Dev nD) :
    (res_main_v37 (F := Ideal) m c : FVec Ideal Lif.St6 .f32)
      = Lif.stacked (F := Ideal) Gen.bcast_S16x56x56x256_S1x16x56x56x256_1_2_3_4
          Gen.concatenates_S1x16x56x56x256_S1x16x56x56x256_S1x16x56x56x256_S1x16x56x56x256_S1x16x56x56x256_S1x16x56x56x256_S6x16x56x56x256_d0
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold res_main_v37 Lif.stacked
  simp only [Lif.cmpf_une]
  rw [splat 0x3F000000#32, splat 0x00000000#32, splat 0x3F800000#32, splat 0x40200000#32]
  rw [Lif.uitofp_bit, Lif.uitofp_bit]
  rfl

end Cert.ReferenceIdeal.StepValue

end
-- ==== Proof.lean ====
/-
  The certificate of one leaky-integrate-and-fire step: a tiled kernel against the whole-array reference.

  Frames.  The kernel's program, at the word level and idealized, is five reshapes, one region over 49 row blocks, and
  thirteen later operations; it terminates without a fault and writes none of its five arguments (KernelRegion,
  KernelIdealRegion).  The reference has no kernel: its run is a line of fifty host operations, none of which writes an
  argument (RefRun).

  Preservation.  The idealized kernel is the kernel's own text read over the extended reals: nothing was rewritten, and
  there is nothing to state.

  Equality of values.  Over the extended reals the idealized kernel's result is the step's value of its arguments
  (KernelIdealValue: every result array is the entrywise step of the reshaped arguments, and reshaping there and back is
  the identity), and so is the reference's (RefValue: its term is the step's, once a splatted constant is read as a constant
  array, an unsigned bit as the widened signed one, and the unordered "not equal" as the ordered one).  From memories that
  agree on the arguments the two results are therefore equal.  No law of arithmetic is used, so the finiteness of the
  inputs is never needed.
-/
import proofs.«178735_j66967130079991_1_alg».proof.Defs
import proofs.«178735_j66967130079991_1_alg».proof.Proof.Gen.Kernel
import proofs.«178735_j66967130079991_1_alg».proof.Proof.Gen.KernelIdeal
import proofs.«178735_j66967130079991_1_alg».proof.Proof.Gen.ReferenceIdeal
import proofs.«178735_j66967130079991_1_alg».proof.Proof.Gen.Pre_finite_inputs
import proofs.«178735_j66967130079991_1_alg».proof.Proof.KernelRegion
import proofs.«178735_j66967130079991_1_alg».proof.Proof.KernelIdealValue
import proofs.«178735_j66967130079991_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel's program runs to the end and leaves its arguments as launched. -/
theorem frame_kernel : Cert.frame_Kernel := fun m ρ _ => Cert.Kernel.Region.frame m ρ

/-- So does the idealized kernel's. -/
theorem frame_kernelIdeal : Cert.frame_KernelIdeal := fun m ρ _ => Cert.KernelIdeal.Region.frame m ρ

/-- The reference's run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with their result at the step's value of the arguments, which agree. -/
theorem algebraic : Cert.algebraic_KernelIdeal_ReferenceIdeal := by
  intro m ρ m' ρ' _ hagree
  refine ⟨_, Cert.KernelIdeal.StepValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.StepValue.result_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
